-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S4096x11008 : Shape := ⟨2, ![4096, 11008]⟩
abbrev S11008 : Shape := ⟨1, ![11008]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S11008x4096 32) (main_arg2 : IVec S11008x4096 32) (main_arg3 : IVec S4096x11008 32) (main_arg4 : FVec F S11008 .f32) (main_arg5 : FVec F S11008 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg4
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg5
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S4096 .f32 := Host.absf main_arg6
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S4096x11008 : Shape := ⟨2, ![4096, 11008]⟩
abbrev S11008 : Shape := ⟨1, ![11008]⟩
abbrev S4096 : Shape := ⟨1, ![4096]⟩
abbrev S8192x4096 : Shape := ⟨2, ![8192, 4096]⟩
abbrev S11008x1 : Shape := ⟨2, ![11008, 1]⟩
abbrev S4096x1 : Shape := ⟨2, ![4096, 1]⟩
abbrev S8192x11008 : Shape := ⟨2, ![8192, 11008]⟩
abbrev S1024x4096 : Shape := ⟨2, ![1024, 4096]⟩
abbrev S256x4096 : Shape := ⟨2, ![256, 4096]⟩
abbrev S1024x256 : Shape := ⟨2, ![1024, 256]⟩
abbrev S256x11008 : Shape := ⟨2, ![256, 11008]⟩
abbrev S512x11008 : Shape := ⟨2, ![512, 11008]⟩
abbrev S256x512 : Shape := ⟨2, ![256, 512]⟩

abbrev nBuf : Space → Nat
  | .hbm => 27
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x4096, .i32⟩
  | .hbm, ⟨3, _⟩ => ⟨S4096x11008, .i32⟩
  | .hbm, ⟨4, _⟩ => ⟨S11008, .f32⟩
  | .hbm, ⟨5, _⟩ => ⟨S11008, .f32⟩
  | .hbm, ⟨6, _⟩ => ⟨S4096, .f32⟩
  | .hbm, ⟨7, _⟩ => ⟨S8192x4096, .f32⟩
  | .hbm, ⟨8, _⟩ => ⟨S8192x4096, .bf16⟩
  | .hbm, ⟨9, _⟩ => ⟨S11008x4096, .f32⟩
  | .hbm, ⟨10, _⟩ => ⟨S11008x1, .f32⟩
  | .hbm, ⟨11, _⟩ => ⟨S11008x4096, .f32⟩
  | .hbm, ⟨12, _⟩ => ⟨S11008x4096, .f32⟩
  | .hbm, ⟨13, _⟩ => ⟨S11008x4096, .bf16⟩
  | .hbm, ⟨14, _⟩ => ⟨S11008x4096, .f32⟩
  | .hbm, ⟨15, _⟩ => ⟨S11008x1, .f32⟩
  | .hbm, ⟨16, _⟩ => ⟨S11008x4096, .f32⟩
  | .hbm, ⟨17, _⟩ => ⟨S11008x4096, .f32⟩
  | .hbm, ⟨18, _⟩ => ⟨S11008x4096, .bf16⟩
  | .hbm, ⟨19, _⟩ => ⟨S4096x11008, .f32⟩
  | .hbm, ⟨20, _⟩ => ⟨S4096x1, .f32⟩
  | .hbm, ⟨21, _⟩ => ⟨S4096x11008, .f32⟩
  | .hbm, ⟨22, _⟩ => ⟨S4096x11008, .f32⟩
  | .hbm, ⟨23, _⟩ => ⟨S4096x11008, .bf16⟩
  | .hbm, ⟨24, _⟩ => ⟨S8192x11008, .bf16⟩
  | .hbm, ⟨25, _⟩ => ⟨S8192x4096, .f32⟩
  | .hbm, ⟨26, _⟩ => ⟨S4x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S1024x256, .bf16⟩
  | .local _ .vmem, ⟨7, _⟩ => ⟨S1024x256, .bf16⟩
  | .local _ .vmem, ⟨8, _⟩ => ⟨S256x11008, .bf16⟩
  | .local _ .vmem, ⟨9, _⟩ => ⟨S256x11008, .bf16⟩
  | .local _ .vmem, ⟨10, _⟩ => ⟨S512x11008, .bf16⟩
  | .local _ .vmem, ⟨11, _⟩ => ⟨S512x11008, .bf16⟩
  | .local _ .vmem, ⟨12, _⟩ => ⟨S256x512, .f32⟩
  | .local _ .vmem, ⟨13, _⟩ => ⟨S256x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![32, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x11008 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x11008 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4x2048x4096_S8192x4096 : S4x2048x4096.ShapeCasts S8192x4096
  bitsLt_bf16_f32 : FTy.bits .bf16 < FTy.bits .f32
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S4096_S4096x1_0 : S4096.BroadcastsInDim S4096x1 (![0] : Fin 1 → Fin S4096x1.rank)
  bcast_S4096x1_S4096x11008_0_1 : S4096x1.BroadcastsInDim S4096x11008 (![0, 1] : Fin 2 → Fin S4096x11008.rank)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S256x11008_S256x11008_0_0 : ∀ a, (![0, 0] : Fin 2 → Nat) a + S256x11008.size a ≤ S256x11008.size a
  h_S256x11008 : 0 < S256x11008.numel
  shapeCasts_S256x11008_S256x11008 : S256x11008.ShapeCasts S256x11008
  inb_S512x11008_S512x11008_0_0 : ∀ a, (![0, 0] : Fin 2 → Nat) a + S512x11008.size a ≤ S512x11008.size a
  h_S512x11008 : 0 < S512x11008.numel
  shapeCasts_S512x11008_S512x11008 : S512x11008.ShapeCasts S512x11008
  inb_S256x512_S256x512_0_0 : ∀ a, (![0, 0] : Fin 2 → Nat) a + S256x512.size a ≤ S256x512.size a
  h_S256x512 : 0 < S256x512.numel
  shapeCasts_S8192x4096_S4x2048x4096 : S8192x4096.ShapeCasts S4x2048x4096
  dot_S1024x4096_S256x4096_S1024x256_1_1_0_0_n_n_wf : DotDims.WF S1024x4096 S256x4096 S1024x256 [1] [1] [0] [0] [] []
  dot_S256x11008_S512x11008_S256x512_1_1_0_0_n_n_wf : DotDims.WF S256x11008 S512x11008 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x11008.size a
  hwx0_3 : ∀ i : grid0.Coords, EltTy.bits .bf16 = 32 ∨ (Rect.block (s := S8192x11008) S1024x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x11008.size a ≤ S8192x11008.size a
  hwx1_0 : ∀ i : grid1.Coords, EltTy.bits .bf16 = 32 ∨ (Rect.block (s := S8192x11008) S256x11008.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x11008.size a ≤ S4096x11008.size a
  hwx1_1 : ∀ i : grid1.Coords, EltTy.bits .bf16 = 32 ∨ (Rect.block (s := S4096x11008) S512x11008.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S8192x4096.size a
  hwx1_2 : ∀ i : grid1.Coords, EltTy.bits .f32 = 32 ∨ (Rect.block (s := S8192x4096) S256x512.size (cc1_transform_2 i) (hinb1_2 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf
def dot_S256x11008_S512x11008_S256x512_1_1_0_0_n_n : DotDims S256x11008 S512x11008 S256x512 where
  lhsContracting := [1]
  rhsContracting := [1]
  lhsNonContracting := [0]
  rhsNonContracting := [0]
  lhsBatch := []
  rhsBatch := []
  wf := dot_S256x11008_S512x11008_S256x512_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S256x11008.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S512x11008.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S256x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S4096x11008 : Shape := ⟨2, ![4096, 11008]⟩
abbrev S11008 : Shape := ⟨1, ![11008]⟩
abbrev S4096 : Shape := ⟨1, ![4096]⟩
abbrev S11008x1 : Shape := ⟨2, ![11008, 1]⟩
abbrev S4096x1 : Shape := ⟨2, ![4096, 1]⟩
abbrev S4x2048x11008 : Shape := ⟨3, ![4, 2048, 11008]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x4096, .i32⟩
  | .hbm, ⟨3, _⟩ => ⟨S4096x11008, .i32⟩
  | .hbm, ⟨4, _⟩ => ⟨S11008, .f32⟩
  | .hbm, ⟨5, _⟩ => ⟨S11008, .f32⟩
  | .hbm, ⟨6, _⟩ => ⟨S4096, .f32⟩
  | .hbm, ⟨7, _⟩ => ⟨S11008x4096, .f32⟩
  | .hbm, ⟨8, _⟩ => ⟨S11008x1, .f32⟩
  | .hbm, ⟨9, _⟩ => ⟨S11008x4096, .f32⟩
  | .hbm, ⟨10, _⟩ => ⟨S11008x4096, .f32⟩
  | .hbm, ⟨11, _⟩ => ⟨S11008x4096, .f32⟩
  | .hbm, ⟨12, _⟩ => ⟨S11008x1, .f32⟩
  | .hbm, ⟨13, _⟩ => ⟨S11008x4096, .f32⟩
  | .hbm, ⟨14, _⟩ => ⟨S11008x4096, .f32⟩
  | .hbm, ⟨15, _⟩ => ⟨S4096x11008, .f32⟩
  | .hbm, ⟨16, _⟩ => ⟨S4096x1, .f32⟩
  | .hbm, ⟨17, _⟩ => ⟨S4096x11008, .f32⟩
  | .hbm, ⟨18, _⟩ => ⟨S4096x11008, .f32⟩
  | .hbm, ⟨19, _⟩ => ⟨S4x2048x11008, .f32⟩
  | .hbm, ⟨20, _⟩ => ⟨S4x2048x11008, .f32⟩
  | .hbm, ⟨21, _⟩ => ⟨S4x2048x11008, .f32⟩
  | .hbm, ⟨22, _⟩ => ⟨S_, .f32⟩
  | .hbm, ⟨23, _⟩ => ⟨S4x2048x11008, .f32⟩
  | .hbm, ⟨24, _⟩ => ⟨S4x2048x11008, .f32⟩
  | .hbm, ⟨25, _⟩ => ⟨S_, .f32⟩
  | .hbm, ⟨26, _⟩ => ⟨S4x2048x11008, .f32⟩
  | .hbm, ⟨27, _⟩ => ⟨S4x2048x11008, .f32⟩
  | .hbm, ⟨28, _⟩ => ⟨S4x2048x11008, .f32⟩
  | .hbm, ⟨29, _⟩ => ⟨S4x2048x11008, .f32⟩
  | .hbm, ⟨30, _⟩ => ⟨S4x2048x11008, .f32⟩
  | .hbm, ⟨31, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S4096_S4096x1_0 : S4096.BroadcastsInDim S4096x1 (![0] : Fin 1 → Fin S4096x1.rank)
  bcast_S4096x1_S4096x11008_0_1 : S4096x1.BroadcastsInDim S4096x11008 (![0, 1] : Fin 2 → Fin S4096x11008.rank)
  bcast_S_S4x2048x11008 : S_.BroadcastsInDim S4x2048x11008 (![] : Fin 0 → Fin S4x2048x11008.rank)
  dot_S4x2048x4096_S11008x4096_S4x2048x11008_2_1_01_0_n_n_wf : DotDims.WF S4x2048x4096 S11008x4096 S4x2048x11008 [2] [1] [0, 1] [0] [] []
  dot_S4x2048x11008_S4096x11008_S4x2048x4096_2_1_01_0_n_n_wf : DotDims.WF S4x2048x11008 S4096x11008 S4x2048x4096 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf
def dot_S4x2048x11008_S4096x11008_S4x2048x4096_2_1_01_0_n_n : DotDims S4x2048x11008 S4096x11008 S4x2048x4096 where
  lhsContracting := [2]
  rhsContracting := [1]
  lhsNonContracting := [0, 1]
  rhsNonContracting := [0]
  lhsBatch := []
  rhsBatch := []
  wf := dot_S4x2048x11008_S4096x11008_S4x2048x4096_2_1_01_0_n_n_wf

class Facts : Prop extends Facts₀ where

variable [Facts]
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

/-- The gated product `g · σ(g) · u`, σ the logistic function `1 / (1 + e^(-g))` on the extended reals, in this
    grouping: first `g · σ(g)`, then times `u`. -/
def gate (g u : EReal) : EReal := g * Ideal.logistic g * u

/-- One entry of the gated two-layer map. With `gw`, `uw` the [11008, 4096] gate and up weights and `dw` the
    [4096, 11008] down weights, entry (b, s, h) is the sum over the 11008 hidden units `i` of

      gate (∑ₖ x[b,s,k]·gw[i,k]) (∑ₖ x[b,s,k]·uw[i,k]) · dw[h,i],

    the inner sums over the 4096 input features `k`. -/
def mlpAt (x : FVec Ideal ⟨3, ![4, 2048, 4096]⟩ .f32) (gw uw : FVec Ideal ⟨2, ![11008, 4096]⟩ .f32)
    (dw : FVec Ideal ⟨2, ![4096, 11008]⟩ .f32) (b : Fin 4) (s : Fin 2048) (h : Fin 4096) : EReal :=
  ∑ i : Fin 11008,
    gate (∑ k : Fin 4096, x (ix3 b s k) * gw (ix2 i k)) (∑ k : Fin 4096, x (ix3 b s k) * uw (ix2 i k))
      * dw (ix2 h i)

/-- The map as an array: its entry at an index is `mlpAt` at the index's three coordinates. -/
def mlp (x : FVec Ideal ⟨3, ![4, 2048, 4096]⟩ .f32) (gw uw : FVec Ideal ⟨2, ![11008, 4096]⟩ .f32)
    (dw : FVec Ideal ⟨2, ![4096, 11008]⟩ .f32) : FVec Ideal ⟨3, ![4, 2048, 4096]⟩ .f32 :=
  fun j => mlpAt x gw uw dw (j 0) (j 1) (j 2)

theorem mlp_apply (x : FVec Ideal ⟨3, ![4, 2048, 4096]⟩ .f32) (gw uw : FVec Ideal ⟨2, ![11008, 4096]⟩ .f32)
    (dw : FVec Ideal ⟨2, ![4096, 11008]⟩ .f32) (b : Fin 4) (s : Fin 2048) (h : Fin 4096) :
    mlp x gw uw dw (ix3 b s h) = mlpAt x gw uw dw b s h := rfl

end Cert.Spec

end
-- ==== Proof.GateUpTile.lean ====
import proofs.«118663_j30906584662311_1_alg».proof.Proof.Gen.KernelIdeal.Frame
import Idealize.ShloMosaic.Lib.Pipeline.Value
import Idealize.ShloMosaic.Lib.ValueIdx
import Idealize.ShloMosaic.PureOps.Ideal.Laws
import proofs.«118663_j30906584662311_1_alg».proof.Proof.Spec

set_option maxRecDepth 16384

noncomputable section

open scoped BigOperators

namespace Cert.KernelIdeal.GateUp

open Cert.KernelIdeal Cert.KernelIdeal.Gen
open Idealize.ShloMosaic Idealize.ShloMosaic.TcCoe Idealize.ShloMosaic.ValueIdx Idealize.SL.Sem
open Idealize.ShloMosaic.Pipeline (Dat)
open Cert.Spec (gate)

/-! ## One tile of the first call: a 1024-row block of activations against two 256-row blocks of weights,
    each contracted over all 4096 columns, then the gate x·σ(x) of the first product times the second -/

theorem lhs_axis0 (j : S1024x256.Idx) (q : dot_S1024x4096_S256x4096_S1024x256_1_1_0_0_n_n.contr.Idx) :
    (dot_S1024x4096_S256x4096_S1024x256_1_1_0_0_n_n.lhsIdx j q 0).val = (j 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl
theorem lhs_axis1 (j : S1024x256.Idx) (q : dot_S1024x4096_S256x4096_S1024x256_1_1_0_0_n_n.contr.Idx) :
    (dot_S1024x4096_S256x4096_S1024x256_1_1_0_0_n_n.lhsIdx j q 1).val = (q ⟨0, by decide⟩).val :=
  dot_S1024x4096_S256x4096_S1024x256_1_1_0_0_n_n.lhsIdx_val_of_single rfl j q
theorem rhs_axis0 (j : S1024x256.Idx) (q : dot_S1024x4096_S256x4096_S1024x256_1_1_0_0_n_n.contr.Idx) :
    (dot_S1024x4096_S256x4096_S1024x256_1_1_0_0_n_n.rhsIdx j q 0).val = (j 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl
theorem rhs_axis1 (j : S1024x256.Idx) (q : dot_S1024x4096_S256x4096_S1024x256_1_1_0_0_n_n.contr.Idx) :
    (dot_S1024x4096_S256x4096_S1024x256_1_1_0_0_n_n.rhsIdx j q 1).val = (q ⟨0, by decide⟩).val :=
  dot_S1024x4096_S256x4096_S1024x256_1_1_0_0_n_n.rhsIdx_val_of_single rfl j q

/-- One product of the tile at row `p`, column `q`: row `p` of the activations against row `q` of the weights, summed
    over the 4096 shared columns (the accumulator the product starts from is zero). -/
theorem product_apply (x : FVec Ideal S1024x4096 .bf16) (w : FVec Ideal S256x4096 .bf16) (p : Fin 1024) (q : Fin 256) :
    matmul dot_S1024x4096_S256x4096_S1024x256_1_1_0_0_n_n none x w (constant S1024x256 .f32 0x00000000#32) (ix2 p q) = ∑ k : Fin 4096, x (ix2 p k) * w (ix2 q k) := by
  refine (Ideal.matmul_constant_zero_apply dot_S1024x4096_S256x4096_S1024x256_1_1_0_0_n_n none x w (ix2 p q)).trans ?_
  rw [← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 p q) ((contrEquiv1 dot_S1024x4096_S256x4096_S1024x256_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S1024x4096_S256x4096_S1024x256_1_1_0_0_n_n.rhsIdx (ix2 p q) ((contrEquiv1 dot_S1024x4096_S256x4096_S1024x256_1_1_0_0_n_n 4096 rfl rfl).symm k) = ix2 q k := funext fun a => Fin.ext (by
    match a with
    | ⟨0, _⟩ => exact rhs_axis0 _ _
    | ⟨1, _⟩ => exact (rhs_axis1 _ _).trans hk)
  rw [el, er]

/-- The pointwise tail of the body at one entry, for any two products `g` and `u`: narrowing is the identity,
    the two multiplications are the extended reals', the logistic is applied entry by entry. -/
theorem gate_at (g u : FVec Ideal S1024x256 .f32) (j : S1024x256.Idx) :
    (truncf .bf16 (mulf (mulf g (logistic g)) u) bitsLt_bf16_f32 : FVec Ideal S1024x256 .bf16) j = gate (g j) (u j) := rfl

/-- The body's stored value at row `p`, column `q` of the tile: the gate of the two products. -/
theorem tile_apply (x : FVec Ideal S1024x4096 .bf16) (gw uw : FVec Ideal S256x4096 .bf16) (p : Fin 1024) (q : Fin 256) :
    k0_pay1 (F := Ideal) x gw uw (ix2 p q)
      = gate (∑ k : Fin 4096, x (ix2 p k) * gw (ix2 q k)) (∑ k : Fin 4096, x (ix2 p k) * uw (ix2 q k)) := by
  unfold k0_pay1
  rw [shapeCast_self, shapeCast_self, shapeCast_self]
  refine (gate_at _ _ (ix2 p q)).trans ?_
  rw [product_apply x gw p q, product_apply x uw p q]

/-- The tile lemma at any index of the tile. -/
theorem tile_apply_idx (x : FVec Ideal S1024x4096 .bf16) (gw uw : FVec Ideal S256x4096 .bf16) (j : S1024x256.Idx) :
    k0_pay1 (F := Ideal) x gw uw j
      = gate (∑ k : Fin 4096, x (ix2 (j 0) k) * gw (ix2 (j 1) k)) (∑ k : Fin 4096, x (ix2 (j 0) k) * uw (ix2 (j 1) k)) := by
  obtain ⟨p, q, rfl⟩ : ∃ (p : Fin 1024) (q : Fin 256), j = ix2 p q := ⟨j 0, j 1, eq_ix2 j⟩
  exact tile_apply x gw uw p q

end Cert.KernelIdeal.GateUp

end
-- ==== Proof.GateUp.lean ====
import proofs.«118663_j30906584662311_1_alg».proof.Proof.GateUpTile

set_option maxRecDepth 16384

noncomputable section

open scoped BigOperators

namespace Cert.KernelIdeal.GateUp

open Cert.KernelIdeal Cert.KernelIdeal.Gen
open Idealize.ShloMosaic Idealize.ShloMosaic.TcCoe Idealize.ShloMosaic.ValueIdx Idealize.SL.Sem
open Idealize.ShloMosaic.Pipeline (Dat)
open Cert.Spec (gate)

/-! ## The whole array the first call leaves -/

/-- Entry (r, i): the gate of row `r` of `x` against row `i` of the gate weights and against row `i` of the up weights. -/
def gated (x : FVec Ideal S8192x4096 .bf16) (gw uw : FVec Ideal S11008x4096 .bf16) : FVec Ideal S8192x11008 .bf16 :=
  fun j => gate (∑ k : Fin 4096, x (ix2 (j 0) k) * gw (ix2 (j 1) k)) (∑ k : Fin 4096, x (ix2 (j 0) k) * uw (ix2 (j 1) k))

theorem zero_offsets : (![0, 0] : Fin 2 → Nat) = fun _ => 0 := funext fun a => by fin_cases a <;> rfl

/-- The printed index maps over the 8 × 43 grid: the activations' row block moves with the output's row block, both
    weights' row blocks with the output's column block, and no operand is tiled along the contraction. -/
theorem index_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = win0_3.index t (1 : Fin 2)
    ∧ win0_2.index t (1 : Fin 2) = 0 :=
  (by decide +kernel : ∀ t : Fin grid0.N, _)

/-- The output's index map in closed form: point `t` of the 8 × 43 grid, counted row by row, writes block
    (t / 43, t % 43). -/
theorem index_closed : ∀ t : Fin cfg0.N, win0_3.index t (0 : Fin 2) = t.val / 43 ∧ win0_3.index t (1 : Fin 2) = t.val % 43 :=
  (by decide +kernel : ∀ t : Fin grid0.N, _)

section
variable (V : (c : Dev nD) → (b : Ref sig .tc) → Buf (Elt Ideal) ((c : Thread nD τ).loc b))

/-- What grid point `t` writes back is block `t` of `gated` of the three operand arrays as the call finds them. -/
theorem flushed_eq (c : Dev nD) (t : Fin cfg0.N) :
    (dat0 V c).flushed 3 t = ((cfg0.win 3).blk t).view.read (Elt Ideal) (gated (V c main_v1) (V c main_v6) (V c main_v11)) := by
  show (cfg0.win 3).cut (grid0.coords t) ((dat0 V c).after 3 t) = _
  rw [after0_3]
  unfold out0_3
  rw [View.canon_unit_zero zero_offsets]
  simp only [View.ld_unit_zero (S := S1024x4096) zero_offsets, View.ld_unit_zero (S := S256x4096) zero_offsets]
  obtain ⟨e0, e1, e2, e3, e4, e5⟩ := index_facts t
  funext j
  show k0_pay1 (F := Ideal) (iblk0 V c 0 t) (iblk0 V c 1 t) (iblk0 V c 2 t) j
    = gated (V c main_v1) (V c main_v6) (V c main_v11) (((cfg0.win 3).blk t).view.emb j)
  refine (tile_apply_idx (iblk0 V c 0 t) (iblk0 V c 1 t) (iblk0 V c 2 t) j).trans ?_
  unfold gated
  have h0 : ∀ k : Fin 4096, iblk0 V c 0 t (ix2 (j 0) k) = V c main_v1 (ix2 ((((cfg0.win 3).blk t).view.emb j) 0) k) := fun k => by
    show V c main_v1 (((cfg0.win 0).blk t).view.emb (ix2 (j 0) k)) = _
    refine congrArg (V c main_v1) ?_
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 4096 + 1 * k.val = k.val; omega
  have h1 : ∀ k : Fin 4096, iblk0 V c 1 t (ix2 (j 1) k) = V c main_v6 (ix2 ((((cfg0.win 3).blk t).view.emb j) 1) k) := fun k => by
    show V c main_v6 (((cfg0.win 1).blk t).view.emb (ix2 (j 1) k)) = _
    refine congrArg (V c main_v6) ?_
    funext a; apply Fin.ext
    match a with
    | ⟨0, _⟩ => show win0_1.index t (0 : Fin 2) * 256 + 1 * (j 1).val = win0_3.index t (1 : Fin 2) * 256 + 1 * (j 1).val; omega
    | ⟨1, _⟩ => show win0_1.index t (1 : Fin 2) * 4096 + 1 * k.val = k.val; omega
  have h2 : ∀ k : Fin 4096, iblk0 V c 2 t (ix2 (j 1) k) = V c main_v11 (ix2 ((((cfg0.win 3).blk t).view.emb j) 1) k) := fun k => by
    show V c main_v11 (((cfg0.win 2).blk t).view.emb (ix2 (j 1) k)) = _
    refine congrArg (V c main_v11) ?_
    funext a; apply Fin.ext
    match a with
    | ⟨0, _⟩ => show win0_2.index t (0 : Fin 2) * 256 + 1 * (j 1).val = win0_3.index t (1 : Fin 2) * 256 + 1 * (j 1).val; omega
    | ⟨1, _⟩ => show win0_2.index t (1 : Fin 2) * 4096 + 1 * k.val = k.val; omega
  simp only [h0, h1, h2]

/-- An index of the output array lies in point `t`'s block iff each coordinate lies in the block's range. -/
theorem mem_block (t : Fin cfg0.N) (i : S8192x11008.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v17).slice (win0_3.rect t)).set ↔ _
  rw [View.set_slice_whole, Rect.mem_set_unit]
  exact Iff.rfl

/-- The 8 × 43 blocks of 1024 × 256 tile the 8192 × 11008 output: entry (r, i) is in block (r / 1024, i / 256), which
    point (r / 1024) · 43 + i / 256 writes. -/
theorem covered (i : S8192x11008.Idx) :
    ∃ t : Fin cfg0.N, (cfg0.win 3).flush t = true ∧ i ∈ ((cfg0.win 3).blk t).view.set := by
  have hi0 : (i 0).val < 8192 := (i 0).isLt
  have hi1 : (i 1).val < 11008 := (i 1).isLt
  have hN : cfg0.N = 344 := N_0
  have ht : (i 0).val / 1024 * 43 + (i 1).val / 256 < cfg0.N := by rw [hN]; omega
  obtain ⟨c0, c1⟩ := index_closed ⟨_, ht⟩
  have q0 : win0_3.index ⟨_, ht⟩ (0 : Fin 2) = (i 0).val / 1024 := by
    rw [c0]; show ((i 0).val / 1024 * 43 + (i 1).val / 256) / 43 = _; omega
  have q1 : win0_3.index ⟨_, ht⟩ (1 : Fin 2) = (i 1).val / 256 := by
    rw [c1]; show ((i 0).val / 1024 * 43 + (i 1).val / 256) % 43 = _; omega
  refine ⟨⟨_, ht⟩, flush0_3 _, ?_⟩
  rw [mem_block]
  intro a
  match a with
  | ⟨0, _⟩ => show win0_3.index ⟨_, ht⟩ (0 : Fin 2) * 1024 ≤ (i 0).val ∧ (i 0).val < win0_3.index ⟨_, ht⟩ (0 : Fin 2) * 1024 + 1024; omega
  | ⟨1, _⟩ => show win0_3.index ⟨_, ht⟩ (1 : Fin 2) * 256 ≤ (i 1).val ∧ (i 1).val < win0_3.index ⟨_, ht⟩ (1 : Fin 2) * 256 + 256; omega

/-- The output array after the first call: `gated` of its three operand arrays as the call finds them. -/
theorem final (c : Dev nD) : (dat0 V c).arrAt 3 cfg0.N = gated (V c main_v1) (V c main_v6) (V c main_v11) :=
  (dat0 V c).arrAt_eq_of_cover 3 _ (fun t _ => flushed_eq V c t) covered

end

end Cert.KernelIdeal.GateUp

end
-- ==== Proof.DownProj.lean ====
import proofs.«118663_j30906584662311_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.DownProj

open Cert.KernelIdeal Cert.KernelIdeal.Gen
open Idealize.ShloMosaic Idealize.ShloMosaic.TcCoe Idealize.ShloMosaic.ValueIdx Idealize.SL.Sem
open Idealize.ShloMosaic.Pipeline (Dat)

/-! ## One tile of the second call: a 256-row block against a 512-row block, contracted over all 11008 columns -/

theorem lhs_axis0 (j : S256x512.Idx) (q : dot_S256x11008_S512x11008_S256x512_1_1_0_0_n_n.contr.Idx) :
    (dot_S256x11008_S512x11008_S256x512_1_1_0_0_n_n.lhsIdx j q 0).val = (j 0).val := by
  unfold DotDims.lhsIdx
  rw [dif_neg (show ¬(0 : Fin S256x11008.rank) ∈ dot_S256x11008_S512x11008_S256x512_1_1_0_0_n_n.lhsBatch by decide), dif_pos (show (0 : Fin S256x11008.rank) ∈ dot_S256x11008_S512x11008_S256x512_1_1_0_0_n_n.lhsNonContracting by decide)]
  rfl
theorem lhs_axis1 (j : S256x512.Idx) (q : dot_S256x11008_S512x11008_S256x512_1_1_0_0_n_n.contr.Idx) :
    (dot_S256x11008_S512x11008_S256x512_1_1_0_0_n_n.lhsIdx j q 1).val = (q ⟨0, by decide⟩).val :=
  dot_S256x11008_S512x11008_S256x512_1_1_0_0_n_n.lhsIdx_val_of_single rfl j q
theorem rhs_axis0 (j : S256x512.Idx) (q : dot_S256x11008_S512x11008_S256x512_1_1_0_0_n_n.contr.Idx) :
    (dot_S256x11008_S512x11008_S256x512_1_1_0_0_n_n.rhsIdx j q 0).val = (j 1).val := by
  unfold DotDims.rhsIdx
  rw [dif_neg (show ¬(0 : Fin S512x11008.rank) ∈ dot_S256x11008_S512x11008_S256x512_1_1_0_0_n_n.rhsBatch by decide), dif_pos (show (0 : Fin S512x11008.rank) ∈ dot_S256x11008_S512x11008_S256x512_1_1_0_0_n_n.rhsNonContracting by decide)]
  rfl
theorem rhs_axis1 (j : S256x512.Idx) (q : dot_S256x11008_S512x11008_S256x512_1_1_0_0_n_n.contr.Idx) :
    (dot_S256x11008_S512x11008_S256x512_1_1_0_0_n_n.rhsIdx j q 1).val = (q ⟨0, by decide⟩).val :=
  dot_S256x11008_S512x11008_S256x512_1_1_0_0_n_n.rhsIdx_val_of_single rfl j q

/-- The body's stored value at row `p`, column `q` of the tile: row `p` of the left block against row `q` of the
    right block, summed over the 11008 shared columns (the accumulator the product starts from is zero). -/
theorem tile_apply (x0 : FVec Ideal S256x11008 .bf16) (x1 : FVec Ideal S512x11008 .bf16) (p : Fin 256) (q : Fin 512) :
    k1_pay1 (F := Ideal) x0 x1 (ix2 p q) = ∑ k : Fin 11008, x0 (ix2 p k) * x1 (ix2 q k) := by
  unfold k1_pay1
  rw [shapeCast_self, shapeCast_self]
  refine (Ideal.matmul_constant_zero_apply dot_S256x11008_S512x11008_S256x512_1_1_0_0_n_n none x0 x1 (ix2 p q)).trans ?_
  rw [← Equiv.sum_comp (contrEquiv1 dot_S256x11008_S512x11008_S256x512_1_1_0_0_n_n 11008 rfl rfl).symm]
  refine Finset.sum_congr rfl fun k _ => ?_
  have hk := contrEquiv1_symm_val dot_S256x11008_S512x11008_S256x512_1_1_0_0_n_n 11008 rfl rfl k
  have el : dot_S256x11008_S512x11008_S256x512_1_1_0_0_n_n.lhsIdx (ix2 p q) ((contrEquiv1 dot_S256x11008_S512x11008_S256x512_1_1_0_0_n_n 11008 rfl rfl).symm k) = ix2 p k := funext fun a => Fin.ext (by
    match a with
    | ⟨0, _⟩ => exact lhs_axis0 _ _
    | ⟨1, _⟩ => exact (lhs_axis1 _ _).trans hk)
  have er : dot_S256x11008_S512x11008_S256x512_1_1_0_0_n_n.rhsIdx (ix2 p q) ((contrEquiv1 dot_S256x11008_S512x11008_S256x512_1_1_0_0_n_n 11008 rfl rfl).symm k) = ix2 q k := funext fun a => Fin.ext (by
    match a with
    | ⟨0, _⟩ => exact rhs_axis0 _ _
    | ⟨1, _⟩ => exact (rhs_axis1 _ _).trans hk)
  rw [el, er]

/-- The tile lemma at any index of the tile. -/
theorem tile_apply_idx (x0 : FVec Ideal S256x11008 .bf16) (x1 : FVec Ideal S512x11008 .bf16) (j : S256x512.Idx) :
    k1_pay1 (F := Ideal) x0 x1 j = ∑ k : Fin 11008, x0 (ix2 (j 0) k) * x1 (ix2 (j 1) k) := by
  obtain ⟨p, q, rfl⟩ : ∃ (p : Fin 256) (q : Fin 512), j = ix2 p q := ⟨j 0, j 1, eq_ix2 j⟩
  exact tile_apply x0 x1 p q

/-! ## The whole array the second call leaves -/

/-- Rows of `a` against rows of `b`: entry (r, h) is the sum over the 11008 shared columns of a[r,k]·b[h,k]. -/
def rowsDot (a : FVec Ideal S8192x11008 .bf16) (b : FVec Ideal S4096x11008 .bf16) : FVec Ideal S8192x4096 .f32 :=
  fun j => ∑ k : Fin 11008, a (ix2 (j 0) k) * b (ix2 (j 1) k)

theorem zero_offsets : (![0, 0] : Fin 2 → Nat) = fun _ => 0 := funext fun a => by fin_cases a <;> rfl

/-- The printed index maps over the 32 × 8 grid: the left operand's row block moves with the output's row block, the
    right operand's row block with the output's column block, and neither operand is tiled along the contraction. -/
theorem index_facts : ∀ t : Fin cfg1.N, win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 31 ∧ win1_2.index t (1 : Fin 2) ≤ 7 :=
  (by decide +kernel : ∀ t : Fin grid1.N, _)

/-- Every output block is some grid point's. -/
theorem index_onto : ∀ (q0 : Fin 32) (q1 : Fin 8), ∃ t : Fin cfg1.N, win1_2.index t = ![q0.val, q1.val] :=
  (by decide +kernel : ∀ (q0 : Fin 32) (q1 : Fin 8), ∃ t : Fin grid1.N, win1_2.index t = ![q0.val, q1.val])

section
variable (V : (c : Dev nD) → (b : Ref sig .tc) → Buf (Elt Ideal) ((c : Thread nD τ).loc b))

/-- What grid point `t` writes back is block `t` of `rowsDot` of the two operand arrays as the call finds them. -/
theorem flushed_eq (c : Dev nD) (t : Fin cfg1.N) :
    (dat1 V c).flushed 2 t = ((cfg1.win 2).blk t).view.read (Elt Ideal) (rowsDot (V c main_v17) (V c main_v16)) := by
  show (cfg1.win 2).cut (grid1.coords t) ((dat1 V c).after 2 t) = _
  rw [after1_2]
  unfold out1_2
  rw [View.canon_unit_zero zero_offsets]
  simp only [View.ld_unit_zero (S := S256x11008) zero_offsets, View.ld_unit_zero (S := S512x11008) zero_offsets]
  obtain ⟨e0, e1, e2, e3, -, -⟩ := index_facts t
  funext j
  show k1_pay1 (F := Ideal) (iblk1 V c 0 t) (iblk1 V c 1 t) j = rowsDot (V c main_v17) (V c main_v16) (((cfg1.win 2).blk t).view.emb j)
  refine (tile_apply_idx (iblk1 V c 0 t) (iblk1 V c 1 t) j).trans ?_
  unfold rowsDot
  refine Finset.sum_congr rfl fun k _ => ?_
  have h0 : iblk1 V c 0 t (ix2 (j 0) k) = V c main_v17 (ix2 ((((cfg1.win 2).blk t).view.emb j) 0) k) := by
    show V c main_v17 (((cfg1.win 0).blk t).view.emb (ix2 (j 0) k)) = _
    refine congrArg (V c main_v17) ?_
    funext a; apply Fin.ext
    match a with
    | ⟨0, _⟩ => show win1_0.index t (0 : Fin 2) * 256 + 1 * (j 0).val = win1_2.index t (0 : Fin 2) * 256 + 1 * (j 0).val; omega
    | ⟨1, _⟩ => show win1_0.index t (1 : Fin 2) * 11008 + 1 * k.val = k.val; omega
  have h1 : iblk1 V c 1 t (ix2 (j 1) k) = V c main_v16 (ix2 ((((cfg1.win 2).blk t).view.emb j) 1) k) := by
    show V c main_v16 (((cfg1.win 1).blk t).view.emb (ix2 (j 1) k)) = _
    refine congrArg (V c main_v16) ?_
    funext a; apply Fin.ext
    match a with
    | ⟨0, _⟩ => show win1_1.index t (0 : Fin 2) * 512 + 1 * (j 1).val = win1_2.index t (1 : Fin 2) * 512 + 1 * (j 1).val; omega
    | ⟨1, _⟩ => show win1_1.index t (1 : Fin 2) * 11008 + 1 * k.val = k.val; omega
  rw [h0, h1]

/-- An index of the output array lies in point `t`'s block iff each coordinate lies in the block's range. -/
theorem mem_block (t : Fin cfg1.N) (i : S8192x4096.Idx) :
    i ∈ ((cfg1.win 2).blk t).view.set ↔ ∀ a : Fin 2, win1_2.index t a * S256x512.size a ≤ (i a).val ∧ (i a).val < win1_2.index t a * S256x512.size a + S256x512.size a := by
  show i ∈ ((View.whole main_v18).slice (win1_2.rect t)).set ↔ _
  rw [View.set_slice_whole, Rect.mem_set_unit]
  exact Iff.rfl

/-- The 32 × 8 blocks of 256 × 512 tile the 8192 × 4096 output: entry (r, h) is in block (r / 256, h / 512). -/
theorem covered (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ := index_onto ⟨(i 0).val / 256, by omega⟩ ⟨(i 1).val / 512, by omega⟩
  have q0 : win1_2.index t (0 : Fin 2) = (i 0).val / 256 := congrFun ht 0
  have q1 : win1_2.index t (1 : Fin 2) = (i 1).val / 512 := congrFun ht 1
  refine ⟨t, flush1_2 t, ?_⟩
  rw [mem_block]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 512 ≤ (i 1).val ∧ (i 1).val < win1_2.index t (1 : Fin 2) * 512 + 512; omega

/-- The output array after the second call: `rowsDot` of its two operand arrays as the call finds them. -/
theorem final (c : Dev nD) : (dat1 V c).arrAt 2 cfg1.N = rowsDot (V c main_v17) (V c main_v16) :=
  (dat1 V c).arrAt_eq_of_cover 2 _ (fun t _ => flushed_eq V c t) covered

end

end Cert.KernelIdeal.DownProj

end
-- ==== Proof.KernelValue.lean ====
import proofs.«118663_j30906584662311_1_alg».proof.Proof.GateUp
import proofs.«118663_j30906584662311_1_alg».proof.Proof.DownProj
import proofs.«118663_j30906584662311_1_alg».proof.Proof.Spec
import Idealize.ShloMosaic.Lib.StableHlo.Run

set_option maxRecDepth 16384

noncomputable section

open scoped BigOperators

namespace Cert.KernelIdeal.KernelValue

open Cert.KernelIdeal Cert.KernelIdeal.Gen
open Idealize.ShloMosaic Idealize.ShloMosaic.TcCoe Idealize.ShloMosaic.ValueIdx Idealize.SL.Sem Idealize.ShloMosaic.StableHlo
open Cert.Spec

/-! ## Flattening the two leading axes: row `b·2048 + s` of the [8192, ·] form is row (b, s) of the [4, 2048, ·] form -/

/-- The flattened row of (b, s). -/
def flatRow (b : Fin 4) (s : Fin 2048) : Fin 8192 := ⟨b.val * 2048 + s.val, by have := b.isLt; have := s.isLt; omega⟩

theorem flatten_apply (x : FVec Ideal S4x2048x4096 .f32) (b : Fin 4) (s : Fin 2048) (k : Fin 4096) :
    shapeCast S8192x4096 x shapeCasts_S4x2048x4096_S8192x4096 (ix2 (flatRow b s) k) = x (ix3 b s k) :=
  shapeCast_apply x _ _ _ (by rw [Shape.rowMajor_val_three, Shape.rowMajor_val_two]; rfl)

theorem unflatten_apply (y : FVec Ideal S8192x4096 .f32) (b : Fin 4) (s : Fin 2048) (h : Fin 4096) :
    shapeCast S4x2048x4096 y shapeCasts_S8192x4096_S4x2048x4096 (ix3 b s h) = y (ix2 (flatRow b s) h) :=
  shapeCast_apply y _ _ _ (by rw [Shape.rowMajor_val_three, Shape.rowMajor_val_two]; rfl)

/-! ## The two calls composed, between the flattening and its inverse, are the gated two-layer map -/

/-- Flatten the activations, run the first call's array function on them and the gate and up weights, the second
    call's on its result and the down weights, and unflatten: entry (b, s, h) is `mlpAt` there. Narrowing to bf16 is
    the identity on extended reals, so the four narrowed operands read as the arrays themselves. -/
theorem composed_eq (x : FVec Ideal S4x2048x4096 .f32) (gw uw : FVec Ideal S11008x4096 .f32) (dw : FVec Ideal S4096x11008 .f32) :
    shapeCast S4x2048x4096
        (DownProj.rowsDot
          (GateUp.gated (truncf .bf16 (shapeCast S8192x4096 x shapeCasts_S4x2048x4096_S8192x4096) bitsLt_bf16_f32)
            (truncf .bf16 gw bitsLt_bf16_f32) (truncf .bf16 uw bitsLt_bf16_f32))
          (truncf .bf16 dw bitsLt_bf16_f32))
        shapeCasts_S8192x4096_S4x2048x4096
      = mlp x gw uw dw := by
  funext j
  obtain ⟨b, s, h, rfl⟩ : ∃ (b : Fin 4) (s : Fin 2048) (h : Fin 4096), j = ix3 b s h := ⟨j 0, j 1, j 2, eq_ix3 j⟩
  rw [mlp_apply]
  refine (unflatten_apply _ b s h).trans ?_
  unfold DownProj.rowsDot mlpAt
  refine Finset.sum_congr rfl fun i _ => ?_
  show GateUp.gated _ _ _ (ix2 (flatRow b s) i) * dw (ix2 h i) = _
  refine congrArg (· * dw (ix2 h i)) ?_
  unfold GateUp.gated
  show gate (∑ k : Fin 4096, shapeCast S8192x4096 x shapeCasts_S4x2048x4096_S8192x4096 (ix2 (flatRow b s) k) * gw (ix2 i k))
      (∑ k : Fin 4096, shapeCast S8192x4096 x shapeCasts_S4x2048x4096_S8192x4096 (ix2 (flatRow b s) k) * uw (ix2 i k)) = _
  simp only [flatten_apply]

/-! ## The contents at the boundaries of @main -/

section
variable (m : (ℓ : Loc nD τ sig) → Buf (Elt Ideal) ℓ) (ρ : Dev nD → PrngReg)

/-- A dequantized [11008, 4096] weight array: the integers converted, each row times its scale. -/
def deqRows (wq : (⟨S11008x4096, .i32⟩ : BufTy).Contents (Elt Ideal)) (sc : (⟨S11008, .f32⟩ : BufTy).Contents (Elt Ideal)) :
    FVec Ideal S11008x4096 .f32 :=
  mulf (sitofp .f32 wq) (broadcastInDim S11008x4096 ![0, 1] bcast_S11008x1_S11008x4096_0_1 (broadcastInDim S11008x1 ![0] bcast_S11008_S11008x1_0 sc))

/-- A dequantized [4096, 11008] weight array: the integers converted, each row times its scale. -/
def deqCols (wq : (⟨S4096x11008, .i32⟩ : BufTy).Contents (Elt Ideal)) (sc : (⟨S4096, .f32⟩ : BufTy).Contents (Elt Ideal)) :
    FVec Ideal S4096x11008 .f32 :=
  mulf (sitofp .f32 wq) (broadcastInDim S4096x11008 ![0, 1] bcast_S4096x1_S4096x11008_0_1 (broadcastInDim S4096x1 ![0] bcast_S4096_S4096x1_0 sc))

/-- Entering the first call, its activation operand holds the flattened, narrowed input. -/
theorem entry_x (c : Dev nD) :
    (V1 m ρ c main_v1 : FVec Ideal S8192x4096 .bf16)
      = truncf (F := Ideal) (φ := .f32) .bf16 (shapeCast S8192x4096 (m ((c : Thread nD τ).loc main_arg0)) shapeCasts_S4x2048x4096_S8192x4096) bitsLt_bf16_f32 := by
  show StableHlo.after hostOps0 (W0 m ρ c) (Proc.devRef .tc main_v1) = _
  after_results
  rfl

/-- … its gate-weight operand the narrowed dequantized gate weights, -/
theorem entry_gate (c : Dev nD) :
    (V1 m ρ c main_v6 : FVec Ideal S11008x4096 .bf16)
      = truncf .bf16 (deqRows (m ((c : Thread nD τ).loc main_arg1)) (m ((c : Thread nD τ).loc main_arg4))) bitsLt_bf16_f32 := by
  show StableHlo.after hostOps0 (W0 m ρ c) (Proc.devRef .tc main_v6) = _
  after_results
  rfl

/-- … its up-weight operand the narrowed dequantized up weights, -/
theorem entry_up (c : Dev nD) :
    (V1 m ρ c main_v11 : FVec Ideal S11008x4096 .bf16)
      = truncf .bf16 (deqRows (m ((c : Thread nD τ).loc main_arg2)) (m ((c : Thread nD τ).loc main_arg5))) bitsLt_bf16_f32 := by
  show StableHlo.after hostOps0 (W0 m ρ c) (Proc.devRef .tc main_v11) = _
  after_results
  rfl

/-- … and the buffer the second call will read its weights from the narrowed dequantized down weights. -/
theorem entry_down (c : Dev nD) :
    (V1 m ρ c main_v16 : FVec Ideal S4096x11008 .bf16)
      = truncf .bf16 (deqCols (m ((c : Thread nD τ).loc main_arg3)) (m ((c : Thread nD τ).loc main_arg6))) bitsLt_bf16_f32 := by
  show StableHlo.after hostOps0 (W0 m ρ c) (Proc.devRef .tc main_v16) = _
  after_results
  rfl

/-- Entering the second call, its left operand holds what the first call left: `gated` of the first call's operands. -/
theorem between_left (c : Dev nD) :
    (V2 m ρ c main_v17 : FVec Ideal S8192x11008 .bf16)
      = GateUp.gated (V1 m ρ c main_v1) (V1 m ρ c main_v6) (V1 m ρ c main_v11) :=
  (W2_arr m ρ c 3).trans (GateUp.final (V1 m ρ) c)

/-- The first call does not touch the down weights' buffer. -/
theorem between_right (c : Dev nD) : V2 m ρ c main_v16 = V1 m ρ c main_v16 :=
  W2_of_ne m ρ c main_v16 (by decide)

/-- After the second call its output array holds `rowsDot` of the second call's operands. -/
theorem after_calls (c : Dev nD) :
    (W3 m ρ c (Proc.devRef .tc main_v18) : FVec Ideal S8192x4096 .f32)
      = DownProj.rowsDot (V2 m ρ c main_v17) (V2 m ρ c main_v16) :=
  (W3_arr m ρ c 2).trans (DownProj.final (V2 m ρ) c)

/-- The result buffer at the end of @main is the unflattened output of the second call. -/
theorem result_cast (c : Dev nD) :
    (W4 m ρ c (Proc.devRef .tc main_v19) : FVec Ideal S4x2048x4096 .f32)
      = shapeCast S4x2048x4096 (W3 m ρ c (Proc.devRef .tc main_v18)) shapeCasts_S8192x4096_S4x2048x4096 := by
  show StableHlo.after hostOps2 (W3 m ρ c) (Proc.devRef .tc main_v19) = _
  after_results
  rfl

/-- THE KERNEL'S RESULT: the gated two-layer map of the input and the three dequantized weight arrays. -/
theorem result_eq (c : Dev nD) :
    (W4 m ρ c (Proc.devRef .tc main_v19) : FVec Ideal S4x2048x4096 .f32)
      = mlp (m ((c : Thread nD τ).loc main_arg0))
          (deqRows (m ((c : Thread nD τ).loc main_arg1)) (m ((c : Thread nD τ).loc main_arg4)))
          (deqRows (m ((c : Thread nD τ).loc main_arg2)) (m ((c : Thread nD τ).loc main_arg5)))
          (deqCols (m ((c : Thread nD τ).loc main_arg3)) (m ((c : Thread nD τ).loc main_arg6))) := by
  rw [result_cast, after_calls, between_left, between_right, entry_x, entry_gate, entry_up, entry_down]
  exact composed_eq _ _ _ _

end

end Cert.KernelIdeal.KernelValue

end
-- ==== Proof.RefValue.lean ====
import proofs.«118663_j30906584662311_1_alg».proof.Proof.Gen.ReferenceIdeal.Read
import proofs.«118663_j30906584662311_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.Spec

/-- The word the reference's silu adds to and divides: the float 1.0 is the real number 1. -/
theorem one_word : FloatOps.ofBits (F := Ideal) .f32 0x3F800000#32 = (1 : EReal) := by
  show Ideal.ofBits .f32 0x3F800000#32 = 1
  simp [Ideal.ofBits, Ideal.ieee, -EReal.coe_mul]; norm_num

/-- The reference spells the logistic function out, `1 / (1 + e^(-g))` in the host's negate, exponential, add and
    divide: on the extended reals that expression IS the logistic function, corners included. -/
theorem expanded_logistic (g : EReal) :
    FloatOps.hostDivf (F := Ideal) (φ := .f32) (1 : EReal)
      (FloatOps.addf (F := Ideal) (φ := .f32) (1 : EReal) (FloatOps.hostUnary (F := Ideal) (φ := .f32) .exp (FloatOps.hostNegf (F := Ideal) (φ := .f32) g)))
      = Ideal.logistic g := rfl

/-- The reference's `silu` at an entry: the first projection times its logistic. -/
theorem silu_apply (x0 : (⟨S4x2048x4096, .f32⟩ : BufTy).Contents (Elt Ideal)) (x1 : (⟨S11008x4096, .i32⟩ : BufTy).Contents (Elt Ideal))
    (x4 : (⟨S11008, .f32⟩ : BufTy).Contents (Elt Ideal)) (i : S4x2048x11008.Idx) :
    val_main_v13 (F := Ideal) x0 x1 x4 i
      = val_main_v12 (F := Ideal) x0 x1 x4 i * Ideal.logistic (val_main_v12 (F := Ideal) x0 x1 x4 i) := by
  rw [val_main_v13_apply, val_main_call0_v5_apply, val_main_call0_v4_apply, val_main_call0_cst_0_apply,
    val_main_call0_v3_apply, val_main_call0_v2_apply, val_main_call0_cst_apply, val_main_call0_v1_apply,
    val_main_call0_v0_apply, one_word]
  generalize val_main_v12 (F := Ideal) x0 x1 x4 i = g
  exact congrArg (g * ·) (expanded_logistic g)

/-- The reference's result, entry by entry, is the gated two-layer map of the activations and the three dequantized
    weight arrays (each kept whole: an integer array converted and scaled row by row). -/
theorem result_eq (x0 : (⟨S4x2048x4096, .f32⟩ : BufTy).Contents (Elt Ideal)) (x1 x2 : (⟨S11008x4096, .i32⟩ : BufTy).Contents (Elt Ideal))
    (x3 : (⟨S4096x11008, .i32⟩ : BufTy).Contents (Elt Ideal)) (x4 x5 : (⟨S11008, .f32⟩ : BufTy).Contents (Elt Ideal))
    (x6 : (⟨S4096, .f32⟩ : BufTy).Contents (Elt Ideal)) :
    val_main_v16 (F := Ideal) x0 x1 x2 x3 x4 x5 x6
      = mlp x0 (val_main_v3 (F := Ideal) x1 x4) (val_main_v7 (F := Ideal) x2 x5) (val_main_v11 (F := Ideal) x3 x6) := by
  funext j
  obtain ⟨b, s, h, rfl⟩ : ∃ (b : Fin 4) (s : Fin 2048) (h : Fin 4096), j = ix3 b s h := ⟨j 0, j 1, j 2, eq_ix3 j⟩
  rw [val_main_v16_apply, mlp_apply]
  unfold mlpAt
  refine Finset.sum_congr rfl fun i _ => ?_
  have hl : lidx_main_v16 (ix3 b s h) i = ix3 b s i := funext fun a => by
    match a with | ⟨0, _⟩ => rfl | ⟨1, _⟩ => rfl | ⟨2, _⟩ => rfl
  have hr : ridx_main_v16 (ix3 b s h) i = ix2 h i := funext fun a => by
    match a with | ⟨0, _⟩ => rfl | ⟨1, _⟩ => rfl
  rw [hl, hr, val_main_v15_apply, silu_apply, val_main_v12_apply, val_main_v14_apply]
  have hl12 : ∀ k : Fin 4096, lidx_main_v12 (ix3 b s i) k = ix3 b s k := fun k => funext fun a => by
    match a with | ⟨0, _⟩ => rfl | ⟨1, _⟩ => rfl | ⟨2, _⟩ => rfl
  have hr12 : ∀ k : Fin 4096, ridx_main_v12 (ix3 b s i) k = ix2 i k := fun k => funext fun a => by
    match a with | ⟨0, _⟩ => rfl | ⟨1, _⟩ => rfl
  have hl14 : ∀ k : Fin 4096, lidx_main_v14 (ix3 b s i) k = ix3 b s k := fun k => funext fun a => by
    match a with | ⟨0, _⟩ => rfl | ⟨1, _⟩ => rfl | ⟨2, _⟩ => rfl
  have hr14 : ∀ k : Fin 4096, ridx_main_v14 (ix3 b s i) k = ix2 i k := fun k => funext fun a => by
    match a with | ⟨0, _⟩ => rfl | ⟨1, _⟩ => rfl
  simp only [hl12, hr12, hl14, hr14]
  rfl

end Cert.ReferenceIdeal.RefValue

end
-- ==== Proof.lean ====
/-
  A gated two-layer map with quantized weights, x : f32[4, 2048, 4096]: each of the three integer weight arrays is
  converted to a float and scaled row by row (gate and up weights [11008, 4096], down weights [4096, 11008]), and

      out[b,s,h] = ∑ᵢ gate (∑ₖ x[b,s,k]·gw[i,k]) (∑ₖ x[b,s,k]·uw[i,k]) · dw[h,i],      gate g u = g · σ(g) · u,

  σ the logistic function (Proof/Spec.lean, `mlp`). The kernel flattens (b, s) to a row r = b·2048 + s, narrows the
  operands to bf16, and makes two tiled calls: the first writes the [8192, 11008] array of gates, one 1024 × 256 tile per
  grid point from a 1024-row block of activations and two 256-row blocks of weights, each product over all 4096 features
  at once; the second contracts that array with the down weights over all 11008 hidden units, one 256 × 512 tile per
  point; a last reshape restores [4, 2048, 4096]. The reference contracts the unflattened x with the same dequantized
  weights and spells σ out as 1 / (1 + e^(-g)).

  On the extended reals the two are one function, with no appeal to finiteness of the inputs: narrowing a float is the
  identity; a product into a zero accumulator and the host's contraction are the same finite sum; the tiles of each call
  tile its output array, so each call leaves ONE whole-array function of its operands (Proof/GateUp.lean `gated`,
  Proof/DownProj.lean `rowsDot`); flattening and unflattening only rename rows (Proof/KernelValue.lean); and
  1 / (1 + e^(-g)) IS σ(g) at every extended real, the corners included (Proof/RefValue.lean). Both programs multiply in
  the same grouping, (g · σ(g)) · u and then · dw, and sum over the same index sets, so no law of arithmetic beyond
  reindexing is used.

  The ideal pass rewrote nothing, so `preserves` is trivial. The kernel's two frames are the generated ones; the
  reference's frame is its generated run with the result dropped.
-/
import proofs.«118663_j30906584662311_1_alg».proof.Defs
import proofs.«118663_j30906584662311_1_alg».proof.Proof.Gen.Kernel
import proofs.«118663_j30906584662311_1_alg».proof.Proof.Gen.Kernel.Skeleton
import proofs.«118663_j30906584662311_1_alg».proof.Proof.Gen.Kernel.Launch
import proofs.«118663_j30906584662311_1_alg».proof.Proof.Gen.Kernel.Points
import proofs.«118663_j30906584662311_1_alg».proof.Proof.Gen.Kernel.Frame
import proofs.«118663_j30906584662311_1_alg».proof.Proof.Gen.KernelIdeal
import proofs.«118663_j30906584662311_1_alg».proof.Proof.Gen.KernelIdeal.Skeleton
import proofs.«118663_j30906584662311_1_alg».proof.Proof.Gen.KernelIdeal.Launch
import proofs.«118663_j30906584662311_1_alg».proof.Proof.Gen.KernelIdeal.Points
import proofs.«118663_j30906584662311_1_alg».proof.Proof.Gen.KernelIdeal.Frame
import proofs.«118663_j30906584662311_1_alg».proof.Proof.Gen.ReferenceIdeal
import proofs.«118663_j30906584662311_1_alg».proof.Proof.Gen.Pre_finite_inputs
import proofs.«118663_j30906584662311_1_alg».proof.Proof.KernelRun
import proofs.«118663_j30906584662311_1_alg».proof.Proof.KernelValue
import proofs.«118663_j30906584662311_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the seven arguments both programs end with their result at `mlp` of the input and the
    three dequantized weight arrays: the kernel by its run with the result named and `KernelValue.result_eq`, the
    reference by its generated run and `RefValue.result_eq`; the dequantized arrays are the same terms on both sides. -/
theorem algebraic : Cert.algebraic_KernelIdeal_ReferenceIdeal := by
  intro m ρ m' ρ' _ hagree
  refine ⟨fun c => Cert.Spec.mlp (m ((c.tc : Thread Cert.KernelIdeal.nD Cert.KernelIdeal.τ).loc Cert.KernelIdeal.main_arg0))
      (Cert.KernelIdeal.KernelValue.deqRows (m ((c.tc : Thread Cert.KernelIdeal.nD Cert.KernelIdeal.τ).loc Cert.KernelIdeal.main_arg1)) (m ((c.tc : Thread Cert.KernelIdeal.nD Cert.KernelIdeal.τ).loc Cert.KernelIdeal.main_arg4)))
      (Cert.KernelIdeal.KernelValue.deqRows (m ((c.tc : Thread Cert.KernelIdeal.nD Cert.KernelIdeal.τ).loc Cert.KernelIdeal.main_arg2)) (m ((c.tc : Thread Cert.KernelIdeal.nD Cert.KernelIdeal.τ).loc Cert.KernelIdeal.main_arg5)))
      (Cert.KernelIdeal.KernelValue.deqCols (m ((c.tc : Thread Cert.KernelIdeal.nD Cert.KernelIdeal.τ).loc Cert.KernelIdeal.main_arg3)) (m ((c.tc : Thread Cert.KernelIdeal.nD Cert.KernelIdeal.τ).loc Cert.KernelIdeal.main_arg6))), ?_, ?_⟩
  · exact (θ_run Cert.KernelIdeal.defs _ _).mono
      (fun r h c => ⟨(h c).1.trans (Cert.KernelIdeal.KernelValue.result_eq m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6⟩ := hagree c
    rw [a0, a1, a2, a3, a4, a5, a6, Cert.ReferenceIdeal.Read.val_main_v16_eq, Cert.ReferenceIdeal.RefValue.result_eq]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
